-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x512 : Shape := ⟨2, ![8192, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x256 .f32) (main_arg5 : FVec F S512x256 .f32) (main_arg6 : FVec F S2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S8192x512 .f32) (main_arg2 : FVec F S2048x256 .f32) (main_arg3 : FVec F S256 .f32) (main_arg4 : FVec F S2048x256 .f32) (main_arg5 : FVec F S512x256 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8192x2048 : Shape := ⟨2, ![8192, 2048]⟩
abbrev S8192x512 : Shape := ⟨2, ![8192, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S1x256 : Shape := ⟨2, ![1, 256]⟩
abbrev S1x2048 : Shape := ⟨2, ![1, 2048]⟩
abbrev S512x2048 : Shape := ⟨2, ![512, 2048]⟩
abbrev S512x512 : Shape := ⟨2, ![512, 512]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S512x256, .f32⟩
  | .hbm, ⟨6, _⟩ => ⟨S2048, .f32⟩
  | .hbm, ⟨7, _⟩ => ⟨S1x256, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S2048x256, .f32⟩
  | .local _ .vmem, ⟨5, _⟩ => ⟨S1x256, .f32⟩
  | .local _ .vmem, ⟨6, _⟩ => ⟨S2048x256, .f32⟩
  | .local _ .vmem, ⟨7, _⟩ => ⟨S512x256, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S512x256_S512x256_1_0_0_1_n_n_wf : DotDims.WF S512x512 S512x256 S512x256 [1] [0] [0] [1] [] []
  dot_S512x2048_S2048x256_S512x256_1_0_0_1_n_n_wf : DotDims.WF S512x2048 S2048x256 S512x256 [1] [0] [0] [1] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .f32 = 32 ∨ (Rect.block (s := S2048x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .f32 = 32 ∨ (Rect.block (s := S2048x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x512 : Shape := ⟨2, ![8192, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S8192x256 : Shape := ⟨2, ![8192, 256]⟩
abbrev S1x256 : Shape := ⟨2, ![1, 256]⟩
abbrev S256x2048 : Shape := ⟨2, ![256, 2048]⟩
abbrev S1x2048 : Shape := ⟨2, ![1, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S512x256, .f32⟩
  | .hbm, ⟨6, _⟩ => ⟨S2048, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S256x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S2048x256_S256x2048_1_0 : S2048x256.Transposes [1, 0] S256x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x512_S512x256_S8192x256_1_0_0_1_n_n_wf : DotDims.WF S8192x512 S512x256 S8192x256 [1] [0] [0] [1] [] []
  dot_S8192x2048_S2048x256_S8192x256_1_0_0_1_n_n_wf : DotDims.WF S8192x2048 S2048x256 S8192x256 [1] [0] [0] [1] [] []
  dot_S8192x256_S256x2048_S8192x2048_1_0_0_1_n_n_wf : DotDims.WF S8192x256 S256x2048 S8192x2048 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf

class Facts : Prop extends Facts₀ where

variable [Facts]
-- ==== Proof.Dense.lean ====
/-
  The function both programs compute, stated once over the extended reals.

  For a batch of n rows: the rank-space factor at (b, r) is the product of Σ_k data(b, k) · u(k, r) with the
  modulated singular value s(r) + Σ_c ctx(b, c) · w(c, r); the layer's output at (b, j) is
  max(Σ_r factor(b, r) · v(j, r) + 2 · bias(j), 0). Row b of the output depends on row b of data and ctx only, so
  the function of a block of rows is the block of the function (`dense_rows`).

  Adding the bias twice is adding its double: on the extended reals addition is associative, and 2 · x = x + x holds
  at every real and at both infinities (`add_twice`).
-/
import Idealize.ShloMosaic.PureOps.Ideal
import Idealize.ShloMosaic.Lib.ValueIdx

noncomputable section

open scoped BigOperators

namespace Cert.Dense

open Idealize.ShloMosaic Idealize.ShloMosaic.ValueIdx

/-- A matrix of extended reals over a literal shape. -/
abbrev Mat (a b : Nat) := (⟨2, ![a, b]⟩ : Shape).Idx → EReal

/-- The pattern of 2.0 and the pattern of +0.0, as the extended reals they denote. -/
abbrev two : EReal := Ideal.ofBits .f32 0x40000000#32
abbrev zero : EReal := Ideal.ofBits .f32 0x00000000#32

/-- Entry (b, r) of the rank-space factor. -/
def factor {n : Nat} (data : Mat n 2048) (ctx : Mat n 512) (u : Mat 2048 256) (s : Mat 1 256) (w : Mat 512 256)
    (b : Fin n) (r : Fin 256) : EReal :=
  (∑ k : Fin 2048, data (ix2 b k) * u (ix2 k r)) * (s (ix2 (0 : Fin 1) r) + ∑ c : Fin 512, ctx (ix2 b c) * w (ix2 c r))

/-- The layer's output on n rows, with the doubled bias. -/
def dense {n : Nat} (data : Mat n 2048) (ctx : Mat n 512) (u : Mat 2048 256) (s : Mat 1 256) (v : Mat 2048 256)
    (w : Mat 512 256) (bias : Mat 1 2048) : Mat n 2048 := fun i =>
  max ((∑ r : Fin 256, factor data ctx u s w (i 0) r * v (ix2 (i 1) r)) + two * bias (ix2 (0 : Fin 1) (i 1))) zero

/-- The output at entry (p, q), spelt out. -/
theorem dense_apply {n : Nat} (data : Mat n 2048) (ctx : Mat n 512) (u : Mat 2048 256) (s : Mat 1 256) (v : Mat 2048 256)
    (w : Mat 512 256) (bias : Mat 1 2048) (p : Fin n) (q : Fin 2048) :
    dense data ctx u s v w bias (ix2 p q)
      = max ((∑ r : Fin 256, factor data ctx u s w p r * v (ix2 q r)) + two * bias (ix2 (0 : Fin 1) q)) zero := rfl

/-- Row b of the output reads row b of data and of ctx only: if the rows of a block are rows of the whole at the
    row map ι, the block's output is the whole's at ι. -/
theorem dense_rows {n n' : Nat} (ι : Fin n' → Fin n) (data : Mat n 2048) (ctx : Mat n 512) (data' : Mat n' 2048)
    (ctx' : Mat n' 512) (u : Mat 2048 256) (s : Mat 1 256) (v : Mat 2048 256) (w : Mat 512 256) (bias : Mat 1 2048)
    (hd : ∀ (p : Fin n') (k : Fin 2048), data' (ix2 p k) = data (ix2 (ι p) k))
    (hc : ∀ (p : Fin n') (k : Fin 512), ctx' (ix2 p k) = ctx (ix2 (ι p) k)) (p : Fin n') (q : Fin 2048) :
    dense data' ctx' u s v w bias (ix2 p q) = dense data ctx u s v w bias (ix2 (ι p) q) := by
  have hf : ∀ r, factor data' ctx' u s w p r = factor data ctx u s w (ι p) r := fun r => by
    unfold factor; simp only [hd, hc]
  rw [dense_apply, dense_apply]
  simp only [hf]

/-- The pattern of 2.0 denotes the real 2. -/
theorem two_eq : two = ((2 : ℝ) : EReal) := by
  simp [two, Ideal.ofBits, Ideal.ieee, -EReal.coe_mul]; norm_num

/-- Doubling is adding to itself, at every extended real. -/
theorem two_mul_self (x : EReal) : two * x = x + x := by
  rw [two_eq]
  induction x using EReal.rec with
  | bot => rw [EReal.coe_mul_bot_of_pos (by norm_num)]; rfl
  | coe x => rw [← EReal.coe_mul, ← EReal.coe_add, two_mul]
  | top => rw [EReal.coe_mul_top_of_pos (by norm_num)]; rfl

/-- Adding the bias twice is adding its double. -/
theorem add_twice (y x : EReal) : y + x + x = y + two * x := by
  rw [two_mul_self, add_assoc]

end Cert.Dense

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Body.lean ====
/-
  What the kernel body stores, as a function of the blocks it loads: `dense` of them.

  At entry (p, q) of the stored block: the three products into zero accumulators are plain sums over the shared
  axis (the last one reads its right operand at (q, r): rows of v against rows of the factor), a change of float
  format is the identity, the [1, 256] and [1, 2048] rows are read at their column, and the scalars 2.0 and 0.0
  are spread to every entry.
-/
import proofs.«167060_j73426760892514_1_alg».proof.Proof.Gen.KernelIdeal.Skeleton
import proofs.«167060_j73426760892514_1_alg».proof.Proof.Dense
import proofs.«167060_j73426760892514_1_alg».proof.Proof.LibDot
import proofs.«167060_j73426760892514_1_alg».proof.Proof.LibDotT
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Dense

/-- Σ_c ctx(p, c) · w(c, r): the context's product, at an entry. -/
theorem ctx_product (x : FVec Ideal S512x512 .bf16) (w : FVec Ideal S512x256 .bf16) (p : Fin 512) (r : Fin 256) :
    matmul dot_S512x512_S512x256_S512x256_1_0_0_1_n_n none x w (constant (F := Ideal) S512x256 .f32 0x00000000#32) (ix2 p r)
      = ∑ c : Fin 512, x (ix2 p c) * w (ix2 c r) :=
  Cert.LibDot.matmul_zero_at dot_S512x512_S512x256_S512x256_1_0_0_1_n_n rfl rfl rfl rfl rfl rfl none x w p r

/-- Σ_k data(p, k) · u(k, r): the data's product, at an entry. -/
theorem data_product (x : FVec Ideal S512x2048 .bf16) (u : FVec Ideal S2048x256 .bf16) (p : Fin 512) (r : Fin 256) :
    matmul dot_S512x2048_S2048x256_S512x256_1_0_0_1_n_n none x u (constant (F := Ideal) S512x256 .f32 0x00000000#32) (ix2 p r)
      = ∑ k : Fin 2048, x (ix2 p k) * u (ix2 k r) :=
  Cert.LibDot.matmul_zero_at dot_S512x2048_S2048x256_S512x256_1_0_0_1_n_n rfl rfl rfl rfl rfl rfl none x u p r

/-- Σ_r low(p, r) · v(q, r): the product against v's rows, at an entry. -/
theorem out_product (l : FVec Ideal S512x256 .bf16) (v : FVec Ideal S2048x256 .bf16) (p : Fin 512) (q : Fin 2048) :
    matmul dot_S512x256_S2048x256_S512x2048_1_1_0_0_n_n none l v (constant (F := Ideal) S512x2048 .f32 0x00000000#32) (ix2 p q)
      = ∑ r : Fin 256, l (ix2 p r) * v (ix2 q r) :=
  Cert.LibDotT.matmul_zero_at_T dot_S512x256_S2048x256_S512x2048_1_1_0_0_n_n rfl rfl rfl rfl rfl rfl none l v p q

/-- The stored block is `dense` of the loaded blocks. -/
theorem payload_eq (v0 : Vec Ideal S512x2048 .f32) (v2 : Vec Ideal S512x512 .f32) (v4 v6 : Vec Ideal S2048x256 .f32)
    (v8 : Vec Ideal S512x256 .f32) (v11 : Vec Ideal S1x256 .f32) (v19 : Vec Ideal S1x2048 .f32) :
    k0_pay1 (F := Ideal) v0 v2 v4 v6 v8 v11 v19 = dense v0 v2 v4 v11 v6 v8 v19 := by
  funext i
  obtain ⟨p, q, rfl⟩ : ∃ (p : Fin 512) (q : Fin 2048), i = ix2 p q := ⟨i 0, i 1, eq_ix2 i⟩
  rw [dense_apply]
  unfold k0_pay1
  rw [maximumf_apply, addf_apply, broadcast_apply, out_product, broadcastTo_1b_ab_apply, mulf_apply, broadcast_apply,
    shapeCast_self]
  congr 1
  congr 1
  · refine Finset.sum_congr rfl fun r _ => ?_
    rw [truncf_apply, truncf_apply, mulf_apply, data_product, addf_apply, ctx_product, broadcastTo_1b_ab_apply]
    simp only [truncf_apply]
    rfl
  · rw [shapeCast_self]
    rfl

end Cert.KernelIdeal.Body

end
-- ==== Proof.Whole.lean ====
/-
  The kernel's result array, whole: after the run it holds `dense` of the launch contents.

  The grid has 16 points; point t stages rows 512 t … 512 t + 511 of data and of ctx, the whole of u, s, v, w and
  bias (the two rank-1 arguments recast as rows by the host before the launch), and writes back rows
  512 t … 512 t + 511 of the result. What it writes is `dense` of its blocks, and since row b of `dense` reads row b
  of data and ctx only, that is block t of `dense` of the whole arrays. The 16 blocks tile the result, so the
  result array ends holding `dense` of the arrays.
-/
import proofs.«167060_j73426760892514_1_alg».proof.Proof.Gen.KernelIdeal.Value
import proofs.«167060_j73426760892514_1_alg».proof.Proof.Body
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.Dense

variable (m : (ℓ : Loc nD τ sig) → Buf (Elt Ideal) ℓ) (ρ : Dev nD → PrngReg)

/-- The zero offset of a whole-buffer access. -/
theorem hz : (![0, 0] : Fin 2 → Nat) = fun _ => 0 := funext fun a => by fin_cases a <;> rfl

/-! ## The arrays the region finds

  The two rank-1 arguments reach the kernel as [1, 256] and [1, 2048] rows, recast by the host before the launch. -/

/-- The singular values' row, as the region finds it: the rank-1 argument recast. -/
theorem s_row (c : Dev nD) :
    (V m c main_v0 : S1x256.Idx → EReal) = shapeCast S1x256 (m ((c : Thread nD τ).loc main_arg3)) shapeCasts_S256_S1x256 := by
  dsimp only [Gen.V, Gen.hostOps0]
  after_results
  rfl

/-- The bias's row, as the region finds it: the rank-1 argument recast. -/
theorem bias_row (c : Dev nD) :
    (V m c main_v1 : S1x2048.Idx → EReal) = shapeCast S1x2048 (m ((c : Thread nD τ).loc main_arg6)) shapeCasts_S2048_S1x2048 := by
  dsimp only [Gen.V, Gen.hostOps0]
  after_results
  rfl

/-- The whole result: `dense` of the arrays the region finds. -/
def whole (c : Dev nD) : Mat 8192 2048 :=
  dense (V m c main_arg0) (V m c main_arg1) (V m c main_arg2) (V m c main_v0) (V m c main_arg4) (V m c main_arg5) (V m c main_v1)

/-- The same over the launch contents: the five matrices as launched, the two rows recast from the rank-1 arguments. -/
theorem whole_eq (c : Dev nD) : whole m c
    = dense (m ((c : Thread nD τ).loc main_arg0)) (m ((c : Thread nD τ).loc main_arg1)) (m ((c : Thread nD τ).loc main_arg2))
        (shapeCast S1x256 (m ((c : Thread nD τ).loc main_arg3)) shapeCasts_S256_S1x256)
        (m ((c : Thread nD τ).loc main_arg4)) (m ((c : Thread nD τ).loc main_arg5))
        (shapeCast S1x2048 (m ((c : Thread nD τ).loc main_arg6)) shapeCasts_S2048_S1x2048) := by
  unfold whole
  rw [V_main_arg0, V_main_arg1, V_main_arg2, V_main_arg4, V_main_arg5, s_row, bias_row]

/-! ## Each window's block at a point

  Point t of the 16 reads rows 512 t … 512 t + 511 of data and of ctx, and the whole of every other operand; it
  writes rows 512 t … 512 t + 511 of the result. -/

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_7.index t (0 : Fin 2) = t.val ∧ win0_7.index t (1 : Fin 2) = 0) :=
  (by decide +kernel : ∀ t : Fin grid0.N, _)

theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- There are 16 points, so row p of point t's block is a row of the array. -/
theorem point_lt (t : Fin cfg0.N) : t.val < 16 := lt_of_lt_of_eq t.isLt N_0

/-- The array row that row p of point t's block is. -/
def rowOf (t : Fin cfg0.N) (p : Fin 512) : Fin 8192 :=
  ⟨512 * t.val + p.val, by have := point_lt t; have := p.isLt; omega⟩

/-- Row p of data's block at point t is row 512 t + p of data. -/
theorem data_block (c : Dev nD) (t : Fin cfg0.N) (p : Fin 512) (k : Fin 2048) (b : Fin 8192) (hb : b.val = 512 * t.val + p.val) :
    (iblk m c 0 t : Mat 512 2048) (ix2 p k) = (V m c main_arg0 : Mat 8192 2048) (ix2 b k) := by
  obtain ⟨⟨h0, h1⟩, -, -⟩ := idx_rows t
  unfold iblk
  rw [View.read_apply]
  show V m c main_arg0 _ = V m c main_arg0 _
  congr 1
  funext a
  apply Fin.ext
  match a with
  | ⟨0, _⟩ => show win0_0.index t 0 * 512 + 1 * p.val = b.val; rw [h0, hb]; omega
  | ⟨1, _⟩ => show win0_0.index t 1 * 2048 + 1 * k.val = k.val; rw [h1]; omega

/-- Row p of ctx's block at point t is row 512 t + p of ctx. -/
theorem ctx_block (c : Dev nD) (t : Fin cfg0.N) (p : Fin 512) (k : Fin 512) (b : Fin 8192) (hb : b.val = 512 * t.val + p.val) :
    (iblk m c 1 t : Mat 512 512) (ix2 p k) = (V m c main_arg1 : Mat 8192 512) (ix2 b k) := by
  obtain ⟨-, ⟨h0, h1⟩, -⟩ := idx_rows t
  unfold iblk
  rw [View.read_apply]
  show V m c main_arg1 _ = V m c main_arg1 _
  congr 1
  funext a
  apply Fin.ext
  match a with
  | ⟨0, _⟩ => show win0_1.index t 0 * 512 + 1 * p.val = b.val; rw [h0, hb]; omega
  | ⟨1, _⟩ => show win0_1.index t 1 * 512 + 1 * k.val = k.val; rw [h1]; omega

/-- The other five operands' blocks are their whole arrays, at every point. -/
theorem u_block (c : Dev nD) (t : Fin cfg0.N) : (iblk m c 2 t : Mat 2048 256) = V m c main_arg2 := by
  obtain ⟨⟨h0, h1⟩, -, -, -, -⟩ := idx_fixed t
  funext x
  unfold iblk
  rw [View.read_apply]
  show V m c main_arg2 _ = V m c main_arg2 x
  congr 1
  funext a
  apply Fin.ext
  match a with
  | ⟨0, _⟩ => show win0_2.index t 0 * 2048 + 1 * (x 0).val = (x 0).val; rw [h0]; omega
  | ⟨1, _⟩ => show win0_2.index t 1 * 256 + 1 * (x 1).val = (x 1).val; rw [h1]; omega

theorem s_block (c : Dev nD) (t : Fin cfg0.N) : (iblk m c 3 t : Mat 1 256) = V m c main_v0 := by
  obtain ⟨-, ⟨h0, h1⟩, -, -, -⟩ := idx_fixed t
  funext x
  unfold iblk
  rw [View.read_apply]
  show V m c main_v0 _ = V m c main_v0 x
  congr 1
  funext a
  apply Fin.ext
  match a with
  | ⟨0, _⟩ => show win0_3.index t 0 * 1 + 1 * (x 0).val = (x 0).val; rw [h0]; omega
  | ⟨1, _⟩ => show win0_3.index t 1 * 256 + 1 * (x 1).val = (x 1).val; rw [h1]; omega

theorem v_block (c : Dev nD) (t : Fin cfg0.N) : (iblk m c 4 t : Mat 2048 256) = V m c main_arg4 := by
  obtain ⟨-, -, ⟨h0, h1⟩, -, -⟩ := idx_fixed t
  funext x
  unfold iblk
  rw [View.read_apply]
  show V m c main_arg4 _ = V m c main_arg4 x
  congr 1
  funext a
  apply Fin.ext
  match a with
  | ⟨0, _⟩ => show win0_4.index t 0 * 2048 + 1 * (x 0).val = (x 0).val; rw [h0]; omega
  | ⟨1, _⟩ => show win0_4.index t 1 * 256 + 1 * (x 1).val = (x 1).val; rw [h1]; omega

theorem w_block (c : Dev nD) (t : Fin cfg0.N) : (iblk m c 5 t : Mat 512 256) = V m c main_arg5 := by
  obtain ⟨-, -, -, ⟨h0, h1⟩, -⟩ := idx_fixed t
  funext x
  unfold iblk
  rw [View.read_apply]
  show V m c main_arg5 _ = V m c main_arg5 x
  congr 1
  funext a
  apply Fin.ext
  match a with
  | ⟨0, _⟩ => show win0_5.index t 0 * 512 + 1 * (x 0).val = (x 0).val; rw [h0]; omega
  | ⟨1, _⟩ => show win0_5.index t 1 * 256 + 1 * (x 1).val = (x 1).val; rw [h1]; omega

theorem bias_block (c : Dev nD) (t : Fin cfg0.N) : (iblk m c 6 t : Mat 1 2048) = V m c main_v1 := by
  obtain ⟨-, -, -, -, ⟨h0, h1⟩⟩ := idx_fixed t
  funext x
  unfold iblk
  rw [View.read_apply]
  show V m c main_v1 _ = V m c main_v1 x
  congr 1
  funext a
  apply Fin.ext
  match a with
  | ⟨0, _⟩ => show win0_6.index t 0 * 1 + 1 * (x 0).val = (x 0).val; rw [h0]; omega
  | ⟨1, _⟩ => show win0_6.index t 1 * 2048 + 1 * (x 1).val = (x 1).val; rw [h1]; omega

/-! ## What a point writes back is its block of the whole result -/

/-- `dense` of the blocks at point t, at entry (p, q), is the whole result at (512 t + p, q). -/
theorem dense_block (c : Dev nD) (t : Fin cfg0.N) (p : Fin 512) (q : Fin 2048) :
    dense (iblk m c 0 t : Mat 512 2048) (iblk m c 1 t : Mat 512 512) (iblk m c 2 t : Mat 2048 256) (iblk m c 3 t : Mat 1 256)
        (iblk m c 4 t : Mat 2048 256) (iblk m c 5 t : Mat 512 256) (iblk m c 6 t : Mat 1 2048) (ix2 p q)
      = whole m c (ix2 (rowOf t p) q) := by
  rw [u_block, s_block, v_block, w_block, bias_block]
  unfold whole
  exact dense_rows (rowOf t)
    (V m c main_arg0) (V m c main_arg1) (iblk m c 0 t) (iblk m c 1 t) (V m c main_arg2) (V m c main_v0) (V m c main_arg4)
    (V m c main_arg5) (V m c main_v1) (fun p' k => data_block m c t p' k _ rfl) (fun p' k => ctx_block m c t p' k _ rfl) p q

/-- What point t writes back is block t of the whole result. -/
theorem flushed_eq (c : Dev nD) (t : Fin cfg0.N) :
    (dats m 0 c).flushed 7 t = ((cfg0.win 7).blk t).view.read (Elt Ideal) (whole m c) := by
  rw [flushed7]
  unfold out0_7
  rw [View.canon_unit_zero hz]
  simp only [View.ld_unit_zero (S := S512x2048) hz, View.ld_unit_zero (S := S512x512) hz, View.ld_unit_zero (S := S2048x256) hz,
    View.ld_unit_zero (S := S512x256) hz, View.ld_unit_zero (S := S1x256) hz, View.ld_unit_zero (S := S1x2048) hz]
  rw [Body.payload_eq]
  funext j
  obtain ⟨p, q, rfl⟩ : ∃ (p : Fin 512) (q : Fin 2048), j = ix2 p q := ⟨j 0, j 1, eq_ix2 j⟩
  obtain ⟨-, -, ⟨h0, h1⟩⟩ := idx_rows t
  show dense (iblk m c 0 t : Mat 512 2048) (iblk m c 1 t : Mat 512 512) (iblk m c 2 t : Mat 2048 256) (iblk m c 3 t : Mat 1 256)
        (iblk m c 4 t : Mat 2048 256) (iblk m c 5 t : Mat 512 256) (iblk m c 6 t : Mat 1 2048) (ix2 p q)
      = whole m c (((cfg0.win 7).blk t).view.emb (ix2 p q))
  rw [dense_block]
  congr 1
  funext a
  apply Fin.ext
  match a with
  | ⟨0, _⟩ => show 512 * t.val + p.val = win0_7.index t 0 * 512 + 1 * p.val; rw [h0]; omega
  | ⟨1, _⟩ => show q.val = win0_7.index t 1 * 2048 + 1 * q.val; rw [h1]; omega

/-! ## The blocks tile the result, so the result array ends holding `whole` -/

/-- Row i of the result lies in the block of point i / 512. -/
theorem cover (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  let t : Fin cfg0.N := ⟨(i 0).val / 512, lt_of_lt_of_eq (by omega : (i 0).val / 512 < 16) N_0.symm⟩
  obtain ⟨-, -, ⟨h0, h1⟩⟩ := idx_rows t
  have ht : t.val = (i 0).val / 512 := rfl
  refine ⟨t, flush0_7 t, ?_⟩
  show i ∈ ((View.whole main_v2).slice (win0_7.rect t)).set
  rw [View.set_slice_whole, Rect.mem_set_unit]
  intro a
  match a with
  | ⟨0, _⟩ => show win0_7.index t 0 * 512 ≤ (i 0).val ∧ (i 0).val < win0_7.index t 0 * 512 + 512; rw [h0, ht]; omega
  | ⟨1, _⟩ => show win0_7.index t 1 * 2048 ≤ (i 1).val ∧ (i 1).val < win0_7.index t 1 * 2048 + 2048; rw [h1]; omega

/-- The result array after the run. -/
theorem final (c : Dev nD) : (dats m 0 c).arrAt 7 cfg0.N = whole m c :=
  (dats m 0 c).arrAt_eq_of_cover 7 (whole m c) (fun t _ => flushed_eq m c t) cover

/-- The kernel's run, read: the result array at `dense` of the launch contents, the arguments unchanged. -/
theorem run : θ_run defs (onTc (τ := τ) (main (F := Ideal))) ⟨m, fun _ => 0, ρ⟩ fun r => ∀ c : Dev nD,
      r.2.mem ((c : Thread nD τ).loc main_v2)
        = dense (m ((c : Thread nD τ).loc main_arg0)) (m ((c : Thread nD τ).loc main_arg1)) (m ((c : Thread nD τ).loc main_arg2))
            (shapeCast S1x256 (m ((c : Thread nD τ).loc main_arg3)) shapeCasts_S256_S1x256)
            (m ((c : Thread nD τ).loc main_arg4)) (m ((c : Thread nD τ).loc main_arg5))
            (shapeCast S1x2048 (m ((c : Thread nD τ).loc main_arg6)) shapeCasts_S2048_S1x2048)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (whole_eq m c)), (h c).2⟩)
    (run_blocks m ρ)

end Cert.KernelIdeal.Whole

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.RefDense.lean ====
/-
  The reference computes `dense`: read one operation at a time at entry (b, j), its result is
  max((Σ_r (Σ_k data(b, k) · u(k, r)) · (s(r) + Σ_c ctx(b, c) · w(c, r)) · v(j, r) + bias(j)) + bias(j), 0):
  the transposed right operand of the last product is read at (j, r), the two broadcast rows at their column, and
  adding the bias twice is adding its double.
-/
import proofs.«167060_j73426760892514_1_alg».proof.Proof.Gen.ReferenceIdeal.Read
import proofs.«167060_j73426760892514_1_alg».proof.Proof.Dense
import proofs.«167060_j73426760892514_1_alg».proof.Proof.LibCastBcast

noncomputable section

open scoped BigOperators

namespace Cert.ReferenceIdeal.RefDense

open Cert.ReferenceIdeal Cert.ReferenceIdeal.Gen Cert.ReferenceIdeal.Read Idealize.ShloMosaic
open Idealize.ShloMosaic.ValueIdx Cert.Dense

/-! ## Where each operation reads its operands, at an entry given by its coordinates -/

theorem last_lhs (b : Fin 8192) (j : Fin 2048) (r : Fin 256) : lidx_main_v7 (ix2 b j) r = ix2 b r :=
  funext fun a => Fin.ext (by match a with | ⟨0, _⟩ => rfl | ⟨1, _⟩ => rfl)
theorem last_rhs (b : Fin 8192) (j : Fin 2048) (r : Fin 256) : ridx_main_v7 (ix2 b j) r = ix2 r j :=
  funext fun a => Fin.ext (by match a with | ⟨0, _⟩ => rfl | ⟨1, _⟩ => rfl)
theorem transposed (r : Fin 256) (j : Fin 2048) : idx_main_v6 (ix2 r j) = ix2 j r :=
  funext fun a => Fin.ext (by match a with | ⟨0, _⟩ => rfl | ⟨1, _⟩ => rfl)
theorem data_lhs (b : Fin 8192) (r : Fin 256) (k : Fin 2048) : lidx_main_v4 (ix2 b r) k = ix2 b k :=
  funext fun a => Fin.ext (by match a with | ⟨0, _⟩ => rfl | ⟨1, _⟩ => rfl)
theorem data_rhs (b : Fin 8192) (r : Fin 256) (k : Fin 2048) : ridx_main_v4 (ix2 b r) k = ix2 k r :=
  funext fun a => Fin.ext (by match a with | ⟨0, _⟩ => rfl | ⟨1, _⟩ => rfl)
theorem ctx_lhs (b : Fin 8192) (r : Fin 256) (k : Fin 512) : lidx_main_v0 (ix2 b r) k = ix2 b k :=
  funext fun a => Fin.ext (by match a with | ⟨0, _⟩ => rfl | ⟨1, _⟩ => rfl)
theorem ctx_rhs (b : Fin 8192) (r : Fin 256) (k : Fin 512) : ridx_main_v0 (ix2 b r) k = ix2 k r :=
  funext fun a => Fin.ext (by match a with | ⟨0, _⟩ => rfl | ⟨1, _⟩ => rfl)
theorem s_row (b : Fin 8192) (r : Fin 256) : idx_main_v2 (ix2 b r) = ix2 (0 : Fin 1) r :=
  funext fun a => Fin.ext (by match a with | ⟨0, _⟩ => rfl | ⟨1, _⟩ => rfl)
theorem bias_row (b : Fin 8192) (j : Fin 2048) : idx_main_v9 (ix2 b j) = ix2 (0 : Fin 1) j :=
  funext fun a => Fin.ext (by match a with | ⟨0, _⟩ => rfl | ⟨1, _⟩ => rfl)
theorem bias_row' (b : Fin 8192) (j : Fin 2048) : idx_main_v12 (ix2 b j) = ix2 (0 : Fin 1) j :=
  funext fun a => Fin.ext (by match a with | ⟨0, _⟩ => rfl | ⟨1, _⟩ => rfl)

/-- The rank-space factor, as the reference's fifth stage at entry (b, r). -/
theorem factor_eq (x0 : Mat 8192 2048) (x1 : Mat 8192 512) (x2 : Mat 2048 256) (x3 : (⟨1, ![256]⟩ : Shape).Idx → EReal)
    (x5 : Mat 512 256) (b : Fin 8192) (r : Fin 256) :
    val_main_v5 (F := Ideal) x0 x1 x2 x3 x5 (ix2 b r) = factor x0 x1 x2 (val_main_v1 (F := Ideal) x3) x5 b r := by
  rw [val_main_v5_apply, val_main_v4_apply, val_main_v3_apply, val_main_v2_apply, val_main_v0_apply]
  simp only [data_lhs, data_rhs, ctx_lhs, ctx_rhs, s_row, Ideal.mulf_def, Ideal.addf_def]
  rfl

/-- The reference's result is `dense` of its arguments, the two rank-1 arguments as the rows it broadcasts. -/
theorem result_eq (x0 : Mat 8192 2048) (x1 : Mat 8192 512) (x2 : Mat 2048 256) (x3 : (⟨1, ![256]⟩ : Shape).Idx → EReal)
    (x4 : Mat 2048 256) (x5 : Mat 512 256) (x6 : (⟨1, ![2048]⟩ : Shape).Idx → EReal) :
    val_main_v14 (F := Ideal) x0 x1 x2 x3 x4 x5 x6
      = dense x0 x1 x2 (val_main_v1 (F := Ideal) x3) x4 x5 (val_main_v8 (F := Ideal) x6) := by
  funext i
  obtain ⟨b, j, rfl⟩ : ∃ (b : Fin 8192) (j : Fin 2048), i = ix2 b j := ⟨i 0, i 1, eq_ix2 i⟩
  rw [dense_apply, val_main_v14_apply, val_main_v13_apply, val_main_v10_apply, val_main_v7_apply, val_main_v12_apply,
    val_main_v9_apply, val_main_call0_v0_apply, val_main_call0_cst_apply]
  simp only [last_lhs, last_rhs, bias_row, bias_row', factor_eq, val_main_v6_apply, transposed,
    Ideal.maximumf_def, Ideal.addf_def, Ideal.ofBits_def]
  rw [← add_twice]
  rfl

/-- The same with the two rank-1 arguments recast as rows, which is how the kernel's program passes them. -/
theorem result_eq_cast (x0 : Mat 8192 2048) (x1 : Mat 8192 512) (x2 : Mat 2048 256) (x3 : (⟨1, ![256]⟩ : Shape).Idx → EReal)
    (x4 : Mat 2048 256) (x5 : Mat 512 256) (x6 : (⟨1, ![2048]⟩ : Shape).Idx → EReal)
    (h3 : (⟨1, ![256]⟩ : Shape).ShapeCasts ⟨2, ![1, 256]⟩) (h6 : (⟨1, ![2048]⟩ : Shape).ShapeCasts ⟨2, ![1, 2048]⟩) :
    val_main_v14 (F := Ideal) x0 x1 x2 x3 x4 x5 x6
      = dense x0 x1 x2 (shapeCast ⟨2, ![1, 256]⟩ x3 h3) x4 x5 (shapeCast ⟨2, ![1, 2048]⟩ x6 h6) := by
  rw [result_eq, Cert.LibCastBcast.row_cast_eq_bcast x3 h3 bcast_S256_S1x256_1,
    Cert.LibCastBcast.row_cast_eq_bcast x6 h6 bcast_S2048_S1x2048_1]
  rfl

end Cert.ReferenceIdeal.RefDense

end
-- ==== Proof.lean ====
/- The proof of the certificate's claim.

   Both programs compute, at entry (b, j) of the result,
   max(Σ_r (Σ_k data(b, k) · u(k, r)) · (s(r) + Σ_c ctx(b, c) · w(c, r)) · v(j, r) + bias-term, 0) over the extended reals
   (`Cert.Dense.dense`). The kernel does it block of 512 rows by block, its three products into zero accumulators
   plain sums, its changes of float format the identity, its bias term 2 · bias(j) (Proof/Body.lean, Proof/Whole.lean).
   The reference does it on the whole arrays, its last product against v transposed, its bias term bias(j) added twice
   (Proof/RefDense.lean). Adding x twice is adding 2 · x at every extended real, and addition is associative there, so
   the two results are equal with no appeal to finiteness. The two frames of the kernel are the generated ones; the
   reference's frame is its run with the result dropped; the idealization rewrote nothing. -/
import proofs.«167060_j73426760892514_1_alg».proof.Defs
import proofs.«167060_j73426760892514_1_alg».proof.Proof.Gen.Kernel
import proofs.«167060_j73426760892514_1_alg».proof.Proof.Gen.Kernel.Skeleton
import proofs.«167060_j73426760892514_1_alg».proof.Proof.Gen.Kernel.Launch
import proofs.«167060_j73426760892514_1_alg».proof.Proof.Gen.Kernel.Points
import proofs.«167060_j73426760892514_1_alg».proof.Proof.Gen.Kernel.Frame
import proofs.«167060_j73426760892514_1_alg».proof.Proof.Gen.KernelIdeal
import proofs.«167060_j73426760892514_1_alg».proof.Proof.Gen.KernelIdeal.Skeleton
import proofs.«167060_j73426760892514_1_alg».proof.Proof.Gen.KernelIdeal.Launch
import proofs.«167060_j73426760892514_1_alg».proof.Proof.Gen.KernelIdeal.Points
import proofs.«167060_j73426760892514_1_alg».proof.Proof.Gen.KernelIdeal.Frame
import proofs.«167060_j73426760892514_1_alg».proof.Proof.Gen.ReferenceIdeal
import proofs.«167060_j73426760892514_1_alg».proof.Proof.Gen.Pre_finite_inputs
import proofs.«167060_j73426760892514_1_alg».proof.Proof.Gen.KernelIdeal.Value
import proofs.«167060_j73426760892514_1_alg».proof.Proof.Gen.ReferenceIdeal.Run
import proofs.«167060_j73426760892514_1_alg».proof.Proof.Gen.ReferenceIdeal.Read
import proofs.«167060_j73426760892514_1_alg».proof.Proof.Whole
import proofs.«167060_j73426760892514_1_alg».proof.Proof.RefDense
import Idealize.ShloMosaic.Adequacy
import Idealize.ShloMosaic.Init

noncomputable section

namespace Cert.Proof

open Idealize.ShloMosaic Idealize.SL.Sem Cert.Kernel

/-- The kernel's frame at the word level: the generated one. -/
theorem frame_kernel : Cert.frame_Kernel := fun m ρ _ => Cert.Kernel.Gen.frame m ρ

/-- The idealized kernel's frame: the generated one. -/
theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with `dense` of them in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6, Cert.ReferenceIdeal.Read.val_main_v14_eq]
  exact Cert.ReferenceIdeal.RefDense.result_eq_cast _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
